-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S65536x128 : Shape := ⟨2, ![65536, 128]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_

variable [Facts]

def fn_part1 {F : FTy → Type} [FloatOps F] (main_arg4 : FVec F S65536x128 .f32) (main_arg5 : FVec F S65536x128 .f32) (main_v13 : IVec S_ 1) (main_v16 : IVec S65536x128 1) : IVec S_ 1 :=
  let main_c_5 : IVec S_ 1 := constantI S_ 1 1#1
  let main_v17 : IVec S_ 1 := (fun x v => Host.reduce IntOp.andi x v reducesTo_S65536x128_S_d0_1 h_S_) main_v16 main_c_5
  let main_v18 : IVec S_ 1 := andi main_v13 main_v17
  let main_v19 : FVec F S65536x128 .f32 := Host.absf main_arg4
  let main_cst_6 : FVec F S_ .f32 := constant S_ .f32 0x7F800000#32
  let main_v20 : FVec F S65536x128 .f32 := broadcastInDim S65536x128 ![] bcast_S_S65536x128 main_cst_6
  let main_v21 : IVec S65536x128 1 := cmpf .olt main_v19 main_v20
  let main_c_7 : IVec S_ 1 := constantI S_ 1 1#1
  let main_v22 : IVec S_ 1 := (fun x v => Host.reduce IntOp.andi x v reducesTo_S65536x128_S_d0_1 h_S_) main_v21 main_c_7
  let main_v23 : IVec S_ 1 := andi main_v18 main_v22
  let main_v24 : FVec F S65536x128 .f32 := Host.absf main_arg5
  let main_cst_8 : FVec F S_ .f32 := constant S_ .f32 0x7F800000#32
  let main_v25 : FVec F S65536x128 .f32 := broadcastInDim S65536x128 ![] bcast_S_S65536x128 main_cst_8
  let main_v26 : IVec S65536x128 1 := cmpf .olt main_v24 main_v25
  let main_c_9 : IVec S_ 1 := constantI S_ 1 1#1
  let main_v27 : IVec S_ 1 := (fun x v => Host.reduce IntOp.andi x v reducesTo_S65536x128_S_d0_1 h_S_) main_v26 main_c_9
  let main_v28 : IVec S_ 1 := andi main_v23 main_v27
  main_v28

def fn {F : FTy → Type} [FloatOps F] (main_arg0 : FVec F S2048x128 .f32) (main_arg1 : FVec F S2048x128 .f32) (main_arg2 : FVec F S2048x128 .f32) (main_arg3 : FVec F S65536x128 .f32) (main_arg4 : FVec F S65536x128 .f32) (main_arg5 : FVec F S65536x128 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S65536x128 .f32 := Host.absf main_arg3
  let main_cst_4 : FVec F S_ .f32 := constant S_ .f32 0x7F800000#32
  let main_v15 : FVec F S65536x128 .f32 := broadcastInDim S65536x128 ![] bcast_S_S65536x128 main_cst_4
  let main_v16 : IVec S65536x128 1 := cmpf .olt main_v14 main_v15
  fn_part1 (F := F) main_arg4 main_arg5 main_v13 main_v16
-- ==== Kernel.lean ====
abbrev S2048x128 : Shape := ⟨2, ![2048, 128]⟩
abbrev S65536x128 : Shape := ⟨2, ![65536, 128]⟩
abbrev S2048x1 : Shape := ⟨2, ![2048, 1]⟩
abbrev S1024x128 : Shape := ⟨2, ![1024, 128]⟩
abbrev S1024x1 : Shape := ⟨2, ![1024, 1]⟩
abbrev S1024x384 : Shape := ⟨2, ![1024, 384]⟩
abbrev S1024 : Shape := ⟨1, ![1024]⟩
abbrev S1024x1024 : Shape := ⟨2, ![1024, 1024]⟩
abbrev S1x1024 : Shape := ⟨2, ![1, 1024]⟩
abbrev S2048 : Shape := ⟨1, ![2048]⟩

abbrev nBuf : Space → Nat
  | .hbm => 8
  | .vmem => 15
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S65536x128, .f32⟩
  | .hbm, ⟨4, _⟩ => ⟨S65536x128, .f32⟩
  | .hbm, ⟨5, _⟩ => ⟨S65536x128, .f32⟩
  | .hbm, ⟨6, _⟩ => ⟨S2048x1, .f32⟩
  | .hbm, ⟨7, _⟩ => ⟨S2048, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v35 : BitVec 1 := Scalar.cmpi .eq arg1 c63_i32
  let v36 : BitVec 32 := Scalar.extui v35
  let c0_i32_21 : BitVec 32 := 0#32
  let v37 : BitVec 1 := Scalar.cmpi .ne v36 c0_i32_21
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S1024x128_S1024x128_0_0 : ∀ a, (![0, 0] : Fin 2 → Nat) a + S1024x128.size a ≤ S1024x128.size a
  h_S1024x128 : 0 < S1024x128.numel
  concatenates_S1024x128_S1024x128_S1024x128_S1024x384_d1 : Shape.Concatenates [S1024x128, S1024x128, S1024x128] S1024x384 1
  reduces_S1024x384_S1024 : S1024x384.Reduces [1] S1024
  shapeCasts_S1024_S1024x1 : S1024.ShapeCasts S1024x1
  bitsLt_bf16_f32 : FTy.bits .bf16 < FTy.bits .f32
  broadcasts_S1024x1_S1024x1024 : S1024x1.Broadcasts S1024x1024
  shapeCasts_S1024_S1x1024 : S1024.ShapeCasts S1x1024
  broadcasts_S1x1024_S1024x1024 : S1x1024.Broadcasts S1024x1024
  reduces_S1024x1024_S1024 : S1024x1024.Reduces [1] S1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S2048x1_S2048 : S2048x1.ShapeCasts S2048
  dot_S1024x384_S1024x384_S1024x1024_1_1_0_0_n_n_wf : DotDims.WF S1024x384 S1024x384 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S2048x128.size a
  hwx0_0 : ∀ i : grid0.Coords, EltTy.bits .f32 = 32 ∨ (Rect.block (s := S2048x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S2048x128.size a
  hwx0_1 : ∀ i : grid0.Coords, EltTy.bits .f32 = 32 ∨ (Rect.block (s := S2048x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S2048x128.size a
  hwx0_2 : ∀ i : grid0.Coords, EltTy.bits .f32 = 32 ∨ (Rect.block (s := S2048x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S65536x128.size a
  hwx0_3 : ∀ i : grid0.Coords, EltTy.bits .f32 = 32 ∨ (Rect.block (s := S65536x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S65536x128.size a
  hwx0_4 : ∀ i : grid0.Coords, EltTy.bits .f32 = 32 ∨ (Rect.block (s := S65536x128) S1024x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S65536x128.size a
  hwx0_5 : ∀ i : grid0.Coords, EltTy.bits .f32 = 32 ∨ (Rect.block (s := S65536x128) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S2048x1.size a
  hwx0_6 : ∀ i : grid0.Coords, EltTy.bits .f32 = 32 ∨ (Rect.block (s := S2048x1) S1024x1.size (cc0_transform_6 i) (hinb0_6 i)).WholeWords (EltTy.packing .f32)

variable [Facts₀]

def dot_S1024x384_S1024x384_S1024x1024_1_1_0_0_n_n : DotDims S1024x384 S1024x384 S1024x1024 where
  lhsContracting := [1]
  rhsContracting := [1]
  lhsNonContracting := [0]
  rhsNonContracting := [0]
  lhsBatch := []
  rhsBatch := []
  wf := dot_S1024x384_S1024x384_S1024x1024_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S2048x128 : Shape := ⟨2, ![2048, 128]⟩
abbrev S65536x128 : Shape := ⟨2, ![65536, 128]⟩
abbrev S2048x384 : Shape := ⟨2, ![2048, 384]⟩
abbrev S65536x384 : Shape := ⟨2, ![65536, 384]⟩
abbrev S_ : Shape := ⟨0, ![]⟩
abbrev S2048 : Shape := ⟨1, ![2048]⟩
abbrev S2048x1 : Shape := ⟨2, ![2048, 1]⟩
abbrev S65536 : Shape := ⟨1, ![65536]⟩
abbrev S2048x65536 : Shape := ⟨2, ![2048, 65536]⟩
abbrev S1x65536 : Shape := ⟨2, ![1, 65536]⟩

abbrev nBuf : Space → Nat
  | .hbm => 34
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S65536x128, .f32⟩
  | .hbm, ⟨4, _⟩ => ⟨S65536x128, .f32⟩
  | .hbm, ⟨5, _⟩ => ⟨S65536x128, .f32⟩
  | .hbm, ⟨6, _⟩ => ⟨S2048x384, .f32⟩
  | .hbm, ⟨7, _⟩ => ⟨S65536x384, .f32⟩
  | .hbm, ⟨8, _⟩ => ⟨S2048x384, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S65536x384, .f32⟩
  | .hbm, ⟨13, _⟩ => ⟨S_, .f32⟩
  | .hbm, ⟨14, _⟩ => ⟨S65536, .f32⟩
  | .hbm, ⟨15, _⟩ => ⟨S2048x65536, .f32⟩
  | .hbm, ⟨16, _⟩ => ⟨S_, .f32⟩
  | .hbm, ⟨17, _⟩ => ⟨S2048x65536, .f32⟩
  | .hbm, ⟨18, _⟩ => ⟨S2048x65536, .f32⟩
  | .hbm, ⟨19, _⟩ => ⟨S2048x65536, .f32⟩
  | .hbm, ⟨20, _⟩ => ⟨S2048x65536, .f32⟩
  | .hbm, ⟨21, _⟩ => ⟨S1x65536, .f32⟩
  | .hbm, ⟨22, _⟩ => ⟨S2048x65536, .f32⟩
  | .hbm, ⟨23, _⟩ => ⟨S2048x65536, .f32⟩
  | .hbm, ⟨24, _⟩ => ⟨S_, .f32⟩
  | .hbm, ⟨25, _⟩ => ⟨S2048x65536, .f32⟩
  | .hbm, ⟨26, _⟩ => ⟨S2048x65536, .f32⟩
  | .hbm, ⟨27, _⟩ => ⟨S2048x65536, .f32⟩
  | .hbm, ⟨28, _⟩ => ⟨S_, .f32⟩
  | .hbm, ⟨29, _⟩ => ⟨S2048x65536, .f32⟩
  | .hbm, ⟨30, _⟩ => ⟨S2048x65536, .f32⟩
  | .hbm, ⟨31, _⟩ => ⟨S2048x65536, .f32⟩
  | .hbm, ⟨32, _⟩ => ⟨S_, .f32⟩
  | .hbm, ⟨33, _⟩ => ⟨S2048, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  concatenates_S2048x128_S2048x128_S2048x128_S2048x384_d1 : Shape.Concatenates [S2048x128, S2048x128, S2048x128] S2048x384 1
  concatenates_S65536x128_S65536x128_S65536x128_S65536x384_d1 : Shape.Concatenates [S65536x128, S65536x128, S65536x128] S65536x384 1
  reducesTo_S2048x384_S2048_d1 : S2048x384.ReducesTo [1] S2048
  h_S_ : 0 < S_.numel
  bcast_S2048_S2048x1_0 : S2048.BroadcastsInDim S2048x1 (![0] : Fin 1 → Fin S2048x1.rank)
  reducesTo_S65536x384_S65536_d1 : S65536x384.ReducesTo [1] S65536
  bcast_S_S2048x65536 : S_.BroadcastsInDim S2048x65536 (![] : Fin 0 → Fin S2048x65536.rank)
  bcast_S2048x1_S2048x65536_0_1 : S2048x1.BroadcastsInDim S2048x65536 (![0, 1] : Fin 2 → Fin S2048x65536.rank)
  bcast_S65536_S1x65536_1 : S65536.BroadcastsInDim S1x65536 (![1] : Fin 1 → Fin S1x65536.rank)
  bcast_S1x65536_S2048x65536_0_1 : S1x65536.BroadcastsInDim S2048x65536 (![0, 1] : Fin 2 → Fin S2048x65536.rank)
  reducesTo_S2048x65536_S2048_d1 : S2048x65536.ReducesTo [1] S2048
  dot_S2048x384_S65536x384_S2048x65536_1_1_0_0_n_n_wf : DotDims.WF S2048x384 S65536x384 S2048x65536 [1] [1] [0] [0] [] []

variable [Facts₀]

def dot_S2048x384_S65536x384_S2048x65536_1_1_0_0_n_n : DotDims S2048x384 S65536x384 S2048x65536 where
  lhsContracting := [1]
  rhsContracting := [1]
  lhsNonContracting := [0]
  rhsNonContracting := [0]
  lhsBatch := []
  rhsBatch := []
  wf := dot_S2048x384_S65536x384_S2048x65536_1_1_0_0_n_n_wf

class Facts : Prop extends Facts₀ where

variable [Facts]
-- ==== Proof.Spec.lean ====
/-
  The mathematics shared by both programs, over the extended reals: the definitions.

  A query row and a fact row are each the concatenation of three 128-wide pieces (384 features).  For a query row `u`
  and a fact row `v` the clamped squared distance is `max (‖u‖² − 2·⟨u,v⟩ + ‖v‖²) 0`, with the sums of squares and the
  inner product taken over the 384 features.  The score of a query is `exp (−½ · min over the facts of that distance)`.
-/
import Idealize.ShloMosaic.PureOps.Ideal
import Idealize.ShloMosaic.Lib.ValueIdx

noncomputable section

open scoped BigOperators

namespace Cert.Spec

open Idealize.ShloMosaic Idealize.ShloMosaic.ValueIdx

/-- The float literal `2.0`. -/
abbrev two : EReal := Ideal.ofBits .f32 0x40000000#32
/-- The float literal `0.0`. -/
abbrev zero : EReal := Ideal.ofBits .f32 0x00000000#32
/-- The float literal `-0.5`. -/
abbrev negHalf : EReal := Ideal.ofBits .f32 0xBF000000#32
/-- The float literal `+∞`. -/
abbrev posInf : EReal := Ideal.ofBits .f32 0x7F800000#32
/-- The float literal `-∞`. -/
abbrev negInf : EReal := Ideal.ofBits .f32 0xFF800000#32

/-- Entry `d` of row `b` of the concatenation, along the feature axis, of three arrays of `n` rows and 128 features. -/
def cat3 {n : ℕ} (A0 A1 A2 : (⟨2, ![n, 128]⟩ : Shape).Idx → EReal) (b : Fin n) (d : Fin 384) : EReal :=
  if h0 : d.val < 128 then A0 (ix2 b ⟨d.val, h0⟩)
  else if h1 : d.val < 256 then A1 (ix2 b ⟨d.val - 128, by omega⟩)
  else A2 (ix2 b ⟨d.val - 256, by omega⟩)

/-- The sum of the squares of a row's 384 entries. -/
def sq (u : Fin 384 → EReal) : EReal := ∑ d : Fin 384, u d * u d

/-- The inner product of two rows. -/
def dot (u v : Fin 384 → EReal) : EReal := ∑ d : Fin 384, u d * v d

/-- The clamped squared distance `max (‖u‖² − 2·⟨u,v⟩ + ‖v‖²) 0`. -/
def dist (u v : Fin 384 → EReal) : EReal := max (sq u - two * dot u v + sq v) zero

/-- The score of query row `b`: `exp (−½ · the least clamped squared distance to a fact)`. -/
def G (q0 q1 q2 : (⟨2, ![2048, 128]⟩ : Shape).Idx → EReal) (f0 f1 f2 : (⟨2, ![65536, 128]⟩ : Shape).Idx → EReal)
    (b : Fin 2048) : EReal :=
  Ideal.exp ((Finset.univ.inf fun f : Fin 65536 => dist (cat3 q0 q1 q2 b) (cat3 f0 f1 f2 f)) * negHalf)

/-- The scores of all 2048 queries, as a vector. -/
def Gvec (q0 q1 q2 : (⟨2, ![2048, 128]⟩ : Shape).Idx → EReal) (f0 f1 f2 : (⟨2, ![65536, 128]⟩ : Shape).Idx → EReal) :
    (⟨1, ![2048]⟩ : Shape).Idx → EReal :=
  fun i => G q0 q1 q2 f0 f1 f2 ⟨(i 0).val, (i 0).isLt⟩

/-- The least of `T` over the tiles `0 … n`. -/
def upTo (T : Fin 64 → EReal) (n : ℕ) : EReal := (Finset.univ.filter fun j : Fin 64 => j.val ≤ n).inf T

end Cert.Spec

end
-- ==== Proof.SpecLaws.lean ====
/-
  The laws that join a tiled running minimum followed by one exponential to a pointwise exponential followed by a
  maximum.  Because `t ↦ exp (−t/2)` is antitone on the extended reals, the largest of `exp (−d/2)` over a nonempty finite
  family of distances `d` is `exp` of `−½` times the least distance; and the least over 65536 facts is the least over 64
  tiles of the least over the 1024 facts of a tile.
-/
import proofs.«140600_j20306605375522_1_alg».proof.Proof.Spec
import Idealize.ShloMosaic.PureOps.Ideal.Laws

noncomputable section

open scoped BigOperators

namespace Cert.Spec

open Idealize.ShloMosaic Idealize.ShloMosaic.ValueIdx

/-! ## The literals -/

theorem posInf_eq : posInf = ⊤ := by simp [posInf, Ideal.ofBits, Ideal.ieee]
theorem negInf_eq : negInf = ⊥ := by simp [negInf, Ideal.ofBits, Ideal.ieee]

/-- The literal `2.0` is the real number 2. -/
private theorem two_eq : two = ((2 : ℝ) : EReal) := by
  simp [two, Ideal.ofBits, Ideal.ieee, -EReal.coe_mul]; norm_num

/-- The literal `-0.5` is the real number −½. -/
private theorem negHalf_eq : negHalf = ((-(1 / 2) : ℝ) : EReal) := by
  simp [negHalf, Ideal.ofBits, Ideal.ieee, -EReal.coe_mul]; norm_num

/-- A fold of `min` from `+∞` is the infimum. -/
theorem fold_min_posInf {n : ℕ} (g : Fin n → EReal) :
    (Finset.univ : Finset (Fin n)).fold min posInf g = Finset.univ.inf g := by
  rw [posInf_eq]; rfl

/-- `+∞` is neutral for `min`. -/
theorem min_posInf_left (x : EReal) : min posInf x = x := by
  rw [posInf_eq]; exact top_inf_eq x

/-! ## The two laws -/

/-- `(−t)/2 = t · (−½)` for every extended real `t`, the infinities included. -/
private theorem div_two_eq (t : EReal) : Ideal.div (-t) two = t * negHalf := by
  rw [two_eq, negHalf_eq, Ideal.div_coe (by norm_num : (2 : ℝ) ≠ 0), EReal.coe_neg, neg_mul, mul_neg]

/-- `exp` is monotone on the extended reals (`exp (−∞) = 0`, `exp (+∞) = +∞`). -/
private theorem exp_mono {a b : EReal} (h : a ≤ b) : Ideal.exp a ≤ Ideal.exp b := by
  induction a using EReal.rec with
  | bot =>
    induction b using EReal.rec with
    | bot => exact le_rfl
    | top => simp
    | coe r => simp only [Ideal.exp_bot, Ideal.exp_coe]; exact_mod_cast (Real.exp_pos r).le
  | top =>
    rw [top_le_iff] at h; rw [h]
  | coe r =>
    induction b using EReal.rec with
    | bot => exact absurd h (by simp)
    | top => simp
    | coe s =>
      simp only [Ideal.exp_coe]
      exact_mod_cast Real.exp_le_exp.mpr (by exact_mod_cast h)

/-- `t ↦ exp (t · (−½))` is antitone: `t · (−½) = −(t · ½)`, multiplication by `½ ≥ 0` is monotone and negation antitone. -/
private theorem expNegHalf_anti {a b : EReal} (h : a ≤ b) :
    Ideal.exp (b * negHalf) ≤ Ideal.exp (a * negHalf) := by
  apply exp_mono
  rw [negHalf_eq, EReal.coe_neg, mul_neg, mul_neg, EReal.neg_le_neg_iff]
  exact mul_le_mul_of_nonneg_right h (by exact_mod_cast (by norm_num : (0 : ℝ) ≤ 1 / 2))

/-- The largest of `exp (−d/2)` over a nonempty finite family of distances, folded from `−∞`, is `exp (−½ · the least
    distance)`: `t ↦ exp ((−t)/2)` is antitone and agrees with `t ↦ exp (t · (−½))` on every extended real. -/
theorem fold_max_exp {n : ℕ} (D : Fin (n + 1) → EReal) :
    (Finset.univ : Finset (Fin (n + 1))).fold max negInf (fun f => Ideal.exp (Ideal.div (-(D f)) two))
      = Ideal.exp ((Finset.univ.inf D) * negHalf) := by
  -- the fold of `max` from `−∞` is the supremum
  have hfold : (Finset.univ : Finset (Fin (n + 1))).fold max negInf (fun f => Ideal.exp (Ideal.div (-(D f)) two))
      = Finset.univ.sup fun f => Ideal.exp (D f * negHalf) := by
    rw [negInf_eq]; simp only [div_two_eq]; rfl
  rw [hfold]
  apply le_antisymm
  · -- every term is below the value at the least distance
    exact Finset.sup_le fun f _ => expNegHalf_anti (Finset.inf_le (Finset.mem_univ f))
  · -- the least distance is attained, the family being nonempty
    obtain ⟨f, hf, he⟩ := Finset.exists_mem_eq_inf (Finset.univ : Finset (Fin (n + 1))) Finset.univ_nonempty D
    rw [he]
    exact Finset.le_sup (f := fun f => Ideal.exp (D f * negHalf)) hf

/-- The least over 65536 facts is the least over the 64 tiles of the least over a tile's 1024 facts. -/
theorem inf_tiles (D : Fin 65536 → EReal) :
    (Finset.univ.inf fun j : Fin 64 => Finset.univ.inf fun s : Fin 1024 => D ⟨1024 * j.val + s.val, by omega⟩)
      = Finset.univ.inf D := by
  apply le_antisymm
  · -- fact `f` is slot `f % 1024` of tile `f / 1024`
    refine Finset.le_inf fun f _ => ?_
    have h1 : f.val / 1024 < 64 := by omega
    have h2 : f.val % 1024 < 1024 := by omega
    have hf : f = ⟨1024 * (⟨f.val / 1024, h1⟩ : Fin 64).val + (⟨f.val % 1024, h2⟩ : Fin 1024).val, by omega⟩ := by
      apply Fin.ext; simp only []; omega
    calc (Finset.univ.inf fun j : Fin 64 => Finset.univ.inf fun s : Fin 1024 => D ⟨1024 * j.val + s.val, by omega⟩)
        ≤ Finset.univ.inf fun s : Fin 1024 => D ⟨1024 * (⟨f.val / 1024, h1⟩ : Fin 64).val + s.val, by omega⟩ :=
          Finset.inf_le (f := fun j : Fin 64 => Finset.univ.inf fun s : Fin 1024 => D ⟨1024 * j.val + s.val, by omega⟩)
            (Finset.mem_univ (⟨f.val / 1024, h1⟩ : Fin 64))
      _ ≤ D ⟨1024 * (⟨f.val / 1024, h1⟩ : Fin 64).val + (⟨f.val % 1024, h2⟩ : Fin 1024).val, by omega⟩ :=
          Finset.inf_le (f := fun s : Fin 1024 => D ⟨1024 * (⟨f.val / 1024, h1⟩ : Fin 64).val + s.val, by omega⟩)
            (Finset.mem_univ (⟨f.val % 1024, h2⟩ : Fin 1024))
      _ = D f := by rw [← hf]
  · -- every slot of every tile is a fact
    exact Finset.le_inf fun j _ => Finset.le_inf fun s _ => Finset.inf_le (Finset.mem_univ _)

/-! ## The running minimum over the tiles seen so far -/

theorem upTo_zero (T : Fin 64 → EReal) : upTo T 0 = T 0 := by
  have hs : (Finset.univ.filter fun j : Fin 64 => j.val ≤ 0) = {0} := by
    ext j; simp only [Finset.mem_filter, Finset.mem_univ, true_and, Finset.mem_singleton, Fin.ext_iff, Fin.val_zero]; omega
  rw [upTo, hs, Finset.inf_singleton]

theorem upTo_succ (T : Fin 64 → EReal) (n : ℕ) (h : n + 1 < 64) : upTo T (n + 1) = min (upTo T n) (T ⟨n + 1, h⟩) := by
  have hs : (Finset.univ.filter fun j : Fin 64 => j.val ≤ n + 1)
      = insert (⟨n + 1, h⟩ : Fin 64) (Finset.univ.filter fun j : Fin 64 => j.val ≤ n) := by
    ext j; simp only [Finset.mem_filter, Finset.mem_univ, true_and, Finset.mem_insert, Fin.ext_iff]; omega
  rw [upTo, upTo, hs, Finset.inf_insert, inf_comm]

theorem upTo_last (T : Fin 64 → EReal) : upTo T 63 = Finset.univ.inf T := by
  have hs : (Finset.univ.filter fun j : Fin 64 => j.val ≤ 63) = Finset.univ := by
    ext j; simp only [Finset.mem_filter, Finset.mem_univ, true_and, iff_true]; omega
  rw [upTo, hs]

end Cert.Spec

end
-- ==== Proof.RefSide.lean ====
/-
  The reference program computes the common specification.

  Row `b` of the reference's result is the largest, over the 65536 facts `f`, folded from `−∞`, of
  `exp ((−d) / 2)` where `d = max (‖q_b‖² − 2·⟨q_b, φ_f⟩ + ‖φ_f‖²) 0`, the query row `q_b` and the fact row `φ_f` being rows
  of the feature-axis concatenations of the three query arrays and of the three fact arrays.  Its sums of squares
  start from the literal zero, which adds nothing.  By the antitone law of the specification's laws this is
  `exp (−½ · the least d)`, the specification's score of query `b`.
-/
import proofs.«140600_j20306605375522_1_alg».proof.Defs
import proofs.«140600_j20306605375522_1_alg».proof.Proof.Gen.ReferenceIdeal.Run
import proofs.«140600_j20306605375522_1_alg».proof.Proof.Gen.ReferenceIdeal.Read
import proofs.«140600_j20306605375522_1_alg».proof.Proof.Spec
import proofs.«140600_j20306605375522_1_alg».proof.Proof.SpecLaws
import Idealize.ShloMosaic.PureOps.Ideal.Laws
import Idealize.ShloMosaic.Lib.ValueIdx
import Idealize.ShloMosaic.Lib.Pipeline.Value

noncomputable section

open scoped BigOperators

namespace Cert.RefSide

open Idealize.ShloMosaic Idealize.ShloMosaic.ValueIdx Cert.ReferenceIdeal Cert.ReferenceIdeal.Gen Cert.ReferenceIdeal.Read

/-- The query-side concatenation along the feature axis, read at row `b` and feature `d`, is the specification's three-piece row. -/
private theorem cat_q (x0 x1 x2 : (⟨S2048x128, .f32⟩ : BufTy).Contents (Elt Ideal)) (b : Fin 2048) (d : Fin 384) :
    val_main_v0 (F := Ideal) x0 x1 x2 (ix2 b d) = Cert.Spec.cat3 x0 x1 x2 b d := by
  unfold val_main_v0 Cert.Spec.cat3
  by_cases h0 : d.val < 128
  · rw [dif_pos h0]
    exact concatenate_apply_piece (t := S2048x384) 1 [⟨S2048x128, x0⟩, ⟨S2048x128, x1⟩, ⟨S2048x128, x2⟩]
      concatenates_S2048x128_S2048x128_S2048x128_S2048x384_d1 (ix2 b d)
      0 (by show 0 < 3; omega) S2048x128 x0 rfl rfl 0 rfl (ix2 b ⟨d.val, h0⟩)
      (fun c hc => match c, hc with | ⟨0, _⟩, _ => rfl | ⟨1, _⟩, hc => absurd rfl hc)
      (by show 0 + d.val = d.val; omega)
  · rw [dif_neg h0]
    by_cases h1 : d.val < 256
    · rw [dif_pos h1]
      exact concatenate_apply_piece (t := S2048x384) 1 [⟨S2048x128, x0⟩, ⟨S2048x128, x1⟩, ⟨S2048x128, x2⟩]
        concatenates_S2048x128_S2048x128_S2048x128_S2048x384_d1 (ix2 b d)
        1 (by show 1 < 3; omega) S2048x128 x1 rfl rfl 128 rfl (ix2 b ⟨d.val - 128, by omega⟩)
        (fun c hc => match c, hc with | ⟨0, _⟩, _ => rfl | ⟨1, _⟩, hc => absurd rfl hc)
        (by show 128 + (d.val - 128) = d.val; omega)
    · rw [dif_neg h1]
      exact concatenate_apply_piece (t := S2048x384) 1 [⟨S2048x128, x0⟩, ⟨S2048x128, x1⟩, ⟨S2048x128, x2⟩]
        concatenates_S2048x128_S2048x128_S2048x128_S2048x384_d1 (ix2 b d)
        2 (by show 2 < 3; omega) S2048x128 x2 rfl rfl 256 rfl (ix2 b ⟨d.val - 256, by omega⟩)
        (fun c hc => match c, hc with | ⟨0, _⟩, _ => rfl | ⟨1, _⟩, hc => absurd rfl hc)
        (by show 256 + (d.val - 256) = d.val; omega)

/-- The fact-side concatenation along the feature axis, read at row `f` and feature `d`, is the specification's three-piece row. -/
private theorem cat_f (x3 x4 x5 : (⟨S65536x128, .f32⟩ : BufTy).Contents (Elt Ideal)) (b : Fin 65536) (d : Fin 384) :
    val_main_v1 (F := Ideal) x3 x4 x5 (ix2 b d) = Cert.Spec.cat3 x3 x4 x5 b d := by
  unfold val_main_v1 Cert.Spec.cat3
  by_cases h0 : d.val < 128
  · rw [dif_pos h0]
    exact concatenate_apply_piece (t := S65536x384) 1 [⟨S65536x128, x3⟩, ⟨S65536x128, x4⟩, ⟨S65536x128, x5⟩]
      concatenates_S65536x128_S65536x128_S65536x128_S65536x384_d1 (ix2 b d)
      0 (by show 0 < 3; omega) S65536x128 x3 rfl rfl 0 rfl (ix2 b ⟨d.val, h0⟩)
      (fun c hc => match c, hc with | ⟨0, _⟩, _ => rfl | ⟨1, _⟩, hc => absurd rfl hc)
      (by show 0 + d.val = d.val; omega)
  · rw [dif_neg h0]
    by_cases h1 : d.val < 256
    · rw [dif_pos h1]
      exact concatenate_apply_piece (t := S65536x384) 1 [⟨S65536x128, x3⟩, ⟨S65536x128, x4⟩, ⟨S65536x128, x5⟩]
        concatenates_S65536x128_S65536x128_S65536x128_S65536x384_d1 (ix2 b d)
        1 (by show 1 < 3; omega) S65536x128 x4 rfl rfl 128 rfl (ix2 b ⟨d.val - 128, by omega⟩)
        (fun c hc => match c, hc with | ⟨0, _⟩, _ => rfl | ⟨1, _⟩, hc => absurd rfl hc)
        (by show 128 + (d.val - 128) = d.val; omega)
    · rw [dif_neg h1]
      exact concatenate_apply_piece (t := S65536x384) 1 [⟨S65536x128, x3⟩, ⟨S65536x128, x4⟩, ⟨S65536x128, x5⟩]
        concatenates_S65536x128_S65536x128_S65536x128_S65536x384_d1 (ix2 b d)
        2 (by show 2 < 3; omega) S65536x128 x5 rfl rfl 256 rfl (ix2 b ⟨d.val - 256, by omega⟩)
        (fun c hc => match c, hc with | ⟨0, _⟩, _ => rfl | ⟨1, _⟩, hc => absurd rfl hc)
        (by show 256 + (d.val - 256) = d.val; omega)

/-- The reference's exponential stage at query row `b` and fact `f`: `exp ((−d) / 2)` with `d` the clamped squared
    distance between the two concatenated rows. -/
private theorem entry (x0 x1 x2 : (⟨S2048x128, .f32⟩ : BufTy).Contents (Elt Ideal)) (x3 x4 x5 : (⟨S65536x128, .f32⟩ : BufTy).Contents (Elt Ideal))
    (b : Fin 2048) (f : Fin 65536) :
    val_main_v20 (F := Ideal) x0 x1 x2 x3 x4 x5 (ix2 b f)
      = Ideal.exp (Ideal.div (-(Cert.Spec.dist (Cert.Spec.cat3 x0 x1 x2 b) (Cert.Spec.cat3 x3 x4 x5 f))) Cert.Spec.two) := by
  have eq : ∀ k : Fin 384, idx_main_v3 (idx_main_v4 (idx_main_v10 (ix2 b f))) k = ix2 b k := fun k =>
    funext fun a => Fin.ext (by match a with | ⟨0, _⟩ => rfl | ⟨1, _⟩ => rfl)
  have ef : ∀ k : Fin 384, idx_main_v6 (idx_main_v12 (idx_main_v13 (ix2 b f))) k = ix2 f k := fun k =>
    funext fun a => Fin.ext (by match a with | ⟨0, _⟩ => rfl | ⟨1, _⟩ => rfl)
  have el : ∀ k : Fin 384, lidx_main_v7 (ix2 b f) k = ix2 b k := fun k =>
    funext fun a => Fin.ext (by match a with | ⟨0, _⟩ => rfl | ⟨1, _⟩ => rfl)
  have er : ∀ k : Fin 384, ridx_main_v7 (ix2 b f) k = ix2 f k := fun k =>
    funext fun a => Fin.ext (by match a with | ⟨0, _⟩ => rfl | ⟨1, _⟩ => rfl)
  rw [val_main_v20_apply, val_main_v19_apply, val_main_v18_apply, val_main_cst_3_apply, val_main_v17_apply,
    val_main_v16_apply, val_main_v15_apply, val_main_cst_2_apply, val_main_v14_apply, val_main_v13_apply,
    val_main_v12_apply, val_main_v6_apply, val_main_cst_0_apply, val_main_v11_apply, val_main_v10_apply,
    val_main_v4_apply, val_main_v3_apply, val_main_cst_apply, val_main_v9_apply, val_main_v8_apply,
    val_main_cst_1_apply, val_main_v7_apply]
  simp only [val_main_v2_apply, val_main_v5_apply, eq, ef, el, er, cat_q, cat_f,
    Ideal.hostUnary_exp_def, Ideal.hostDivf_def, Ideal.hostNegf_def, Ideal.negf_def, Ideal.maximumf_def,
    Ideal.addf_def, Ideal.subf_def, Ideal.mulf_def, Ideal.ofBits_def, Ideal.ofBits_zero_f32, zero_add,
    Cert.Spec.dist, Cert.Spec.sq, Cert.Spec.dot, Cert.Spec.zero, Cert.Spec.two]

/-- The reference's result, as a function of its six argument arrays, is the vector of the specification's scores. -/
theorem ref_eq (x0 x1 x2 : (⟨S2048x128, .f32⟩ : BufTy).Contents (Elt Ideal)) (x3 x4 x5 : (⟨S65536x128, .f32⟩ : BufTy).Contents (Elt Ideal)) :
    val_main_v21 (F := Ideal) x0 x1 x2 x3 x4 x5 = Cert.Spec.Gvec x0 x1 x2 x3 x4 x5 := by
  funext i
  obtain ⟨b, rfl⟩ : ∃ b : Fin 2048, i = ix1 b := ⟨i 0, eq_ix1 i⟩
  have h : S2048x65536.Reduces [1] S2048 := by decide
  have hl : ∀ k : Fin 65536, h.lift (ix1 b) k = ix2 b k := fun k =>
    funext fun a => Fin.ext (by match a with | ⟨0, _⟩ => rfl | ⟨1, _⟩ => rfl)
  unfold val_main_v21
  rw [Host.reduce_eq_fold_single (FloatOps.maximumf (F := Ideal) (φ := .f32)) _ _ reducesTo_S2048x65536_S2048_d1 h h_S_ (ix1 b)]
  have key : (val_main_v20 (F := Ideal) x0 x1 x2 x3 x4 x5 ∘ h.lift (ix1 b))
      = fun f : Fin (65535 + 1) => Ideal.exp (Ideal.div (-(Cert.Spec.dist (Cert.Spec.cat3 x0 x1 x2 b) (Cert.Spec.cat3 x3 x4 x5 f))) Cert.Spec.two) :=
    funext fun k => by
      show val_main_v20 (F := Ideal) x0 x1 x2 x3 x4 x5 (h.lift (ix1 b) k) = _
      rw [hl k]; exact entry x0 x1 x2 x3 x4 x5 b k
  rw [key]
  exact Cert.Spec.fold_max_exp (n := 65535) fun f => Cert.Spec.dist (Cert.Spec.cat3 x0 x1 x2 b) (Cert.Spec.cat3 x3 x4 x5 f)

end Cert.RefSide

end
-- ==== Proof.KBlocks.lean ====
/-
  The blocks the kernel body sees are row blocks of the argument arrays.

  The grid has 2 × 64 points, point `t` being query tile `t / 64` and fact tile `t % 64`.  Each of the three query windows
  hands the body rows `1024·(t/64) … 1024·(t/64)+1023` of its array and each of the three fact windows rows
  `1024·(t%64) … 1024·(t%64)+1023` of its array, all 128 features.  So row `r` of the concatenated query block is row
  `1024·(t/64)+r` of the concatenated query arrays, and likewise for the facts.
-/
import proofs.«140600_j20306605375522_1_alg».proof.Proof.Gen.KernelIdeal.Frame
import proofs.«140600_j20306605375522_1_alg».proof.Proof.Spec
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx Cert.KernelIdeal Cert.KernelIdeal.Gen

section AnyValues

variable {F : FTy → Type} [FloatOps F]
variable (m : (ℓ : Loc nD τ sig) → Buf (Elt F) ℓ)

/-- Window 0's block at point `t`, and its array, at their literal types. -/
abbrev blk0 (c : Dev nD) (t : Fin cfg0.N) : Vec F S1024x128 .f32 := iblk m c 0 t
abbrev arr0 (c : Dev nD) : Vec F S2048x128 .f32 := V m c main_arg0
/-- Window 1's block at point `t`, and its array, at their literal types. -/
abbrev blk1 (c : Dev nD) (t : Fin cfg0.N) : Vec F S1024x128 .f32 := iblk m c 1 t
abbrev arr1 (c : Dev nD) : Vec F S2048x128 .f32 := V m c main_arg1
/-- Window 2's block at point `t`, and its array, at their literal types. -/
abbrev blk2 (c : Dev nD) (t : Fin cfg0.N) : Vec F S1024x128 .f32 := iblk m c 2 t
abbrev arr2 (c : Dev nD) : Vec F S2048x128 .f32 := V m c main_arg2
/-- Window 3's block at point `t`, and its array, at their literal types. -/
abbrev blk3 (c : Dev nD) (t : Fin cfg0.N) : Vec F S1024x128 .f32 := iblk m c 3 t
abbrev arr3 (c : Dev nD) : Vec F S65536x128 .f32 := V m c main_arg3
/-- Window 4's block at point `t`, and its array, at their literal types. -/
abbrev blk4 (c : Dev nD) (t : Fin cfg0.N) : Vec F S1024x128 .f32 := iblk m c 4 t
abbrev arr4 (c : Dev nD) : Vec F S65536x128 .f32 := V m c main_arg4
/-- Window 5's block at point `t`, and its array, at their literal types. -/
abbrev blk5 (c : Dev nD) (t : Fin cfg0.N) : Vec F S1024x128 .f32 := iblk m c 5 t
abbrev arr5 (c : Dev nD) : Vec F S65536x128 .f32 := V m c main_arg5

/-- The query windows' block index at point `t` is `(t / 64, 0)`, the fact windows' `(t % 64, 0)`: decided over the grid. -/
theorem idx_q : ∀ t : Fin cfg0.N, (win0_0.index t 0 = t.val / 64 ∧ win0_0.index t 1 = 0) ∧ (win0_1.index t 0 = t.val / 64 ∧ win0_1.index t 1 = 0)
    ∧ (win0_2.index t 0 = t.val / 64 ∧ win0_2.index t 1 = 0) :=
  (by decide +kernel : ∀ t : Fin grid0.N, (win0_0.index t 0 = t.val / 64 ∧ win0_0.index t 1 = 0) ∧ (win0_1.index t 0 = t.val / 64 ∧ win0_1.index t 1 = 0)
    ∧ (win0_2.index t 0 = t.val / 64 ∧ win0_2.index t 1 = 0))
theorem idx_f : ∀ t : Fin cfg0.N, (win0_3.index t 0 = t.val % 64 ∧ win0_3.index t 1 = 0) ∧ (win0_4.index t 0 = t.val % 64 ∧ win0_4.index t 1 = 0)
    ∧ (win0_5.index t 0 = t.val % 64 ∧ win0_5.index t 1 = 0) :=
  (by decide +kernel : ∀ t : Fin grid0.N, (win0_3.index t 0 = t.val % 64 ∧ win0_3.index t 1 = 0) ∧ (win0_4.index t 0 = t.val % 64 ∧ win0_4.index t 1 = 0)
    ∧ (win0_5.index t 0 = t.val % 64 ∧ win0_5.index t 1 = 0))

/-- Entry `(r, d)` of window 0's block at point `t` is entry `(1024·(t/64) + r, d)` of its array. -/
theorem blk0_apply (c : Dev nD) (t : Fin cfg0.N) (r : Fin 1024) (d : Fin 128) (h : 1024 * (t.val / 64) + r.val < 2048) :
    blk0 m c t (ix2 r d) = arr0 m c (ix2 (⟨1024 * (t.val / 64) + r.val, h⟩ : Fin 2048) d) := by
  show iblk m c 0 t (ix2 r d) = V m c main_arg0 _
  unfold iblk
  rw [View.read_apply]
  show V m c main_arg0 (((cfg0.win 0).blk t).view.emb (ix2 r d)) = V m c main_arg0 _
  refine congrArg (V m c main_arg0) (funext fun a => Fin.ext ?_)
  match a with
  | ⟨0, _⟩ => show win0_0.index t 0 * 1024 + 1 * r.val = 1024 * (t.val / 64) + r.val; rw [((idx_q t).1).1]; omega
  | ⟨1, _⟩ => show win0_0.index t 1 * 128 + 1 * d.val = d.val; rw [((idx_q t).1).2]; omega

/-- Entry `(r, d)` of window 1's block at point `t` is entry `(1024·(t/64) + r, d)` of its array. -/
theorem blk1_apply (c : Dev nD) (t : Fin cfg0.N) (r : Fin 1024) (d : Fin 128) (h : 1024 * (t.val / 64) + r.val < 2048) :
    blk1 m c t (ix2 r d) = arr1 m c (ix2 (⟨1024 * (t.val / 64) + r.val, h⟩ : Fin 2048) d) := by
  show iblk m c 1 t (ix2 r d) = V m c main_arg1 _
  unfold iblk
  rw [View.read_apply]
  show V m c main_arg1 (((cfg0.win 1).blk t).view.emb (ix2 r d)) = V m c main_arg1 _
  refine congrArg (V m c main_arg1) (funext fun a => Fin.ext ?_)
  match a with
  | ⟨0, _⟩ => show win0_1.index t 0 * 1024 + 1 * r.val = 1024 * (t.val / 64) + r.val; rw [((idx_q t).2.1).1]; omega
  | ⟨1, _⟩ => show win0_1.index t 1 * 128 + 1 * d.val = d.val; rw [((idx_q t).2.1).2]; omega

/-- Entry `(r, d)` of window 2's block at point `t` is entry `(1024·(t/64) + r, d)` of its array. -/
theorem blk2_apply (c : Dev nD) (t : Fin cfg0.N) (r : Fin 1024) (d : Fin 128) (h : 1024 * (t.val / 64) + r.val < 2048) :
    blk2 m c t (ix2 r d) = arr2 m c (ix2 (⟨1024 * (t.val / 64) + r.val, h⟩ : Fin 2048) d) := by
  show iblk m c 2 t (ix2 r d) = V m c main_arg2 _
  unfold iblk
  rw [View.read_apply]
  show V m c main_arg2 (((cfg0.win 2).blk t).view.emb (ix2 r d)) = V m c main_arg2 _
  refine congrArg (V m c main_arg2) (funext fun a => Fin.ext ?_)
  match a with
  | ⟨0, _⟩ => show win0_2.index t 0 * 1024 + 1 * r.val = 1024 * (t.val / 64) + r.val; rw [((idx_q t).2.2).1]; omega
  | ⟨1, _⟩ => show win0_2.index t 1 * 128 + 1 * d.val = d.val; rw [((idx_q t).2.2).2]; omega

/-- Entry `(r, d)` of window 3's block at point `t` is entry `(1024·(t%64) + r, d)` of its array. -/
theorem blk3_apply (c : Dev nD) (t : Fin cfg0.N) (r : Fin 1024) (d : Fin 128) (h : 1024 * (t.val % 64) + r.val < 65536) :
    blk3 m c t (ix2 r d) = arr3 m c (ix2 (⟨1024 * (t.val % 64) + r.val, h⟩ : Fin 65536) d) := by
  show iblk m c 3 t (ix2 r d) = V m c main_arg3 _
  unfold iblk
  rw [View.read_apply]
  show V m c main_arg3 (((cfg0.win 3).blk t).view.emb (ix2 r d)) = V m c main_arg3 _
  refine congrArg (V m c main_arg3) (funext fun a => Fin.ext ?_)
  match a with
  | ⟨0, _⟩ => show win0_3.index t 0 * 1024 + 1 * r.val = 1024 * (t.val % 64) + r.val; rw [((idx_f t).1).1]; omega
  | ⟨1, _⟩ => show win0_3.index t 1 * 128 + 1 * d.val = d.val; rw [((idx_f t).1).2]; omega

/-- Entry `(r, d)` of window 4's block at point `t` is entry `(1024·(t%64) + r, d)` of its array. -/
theorem blk4_apply (c : Dev nD) (t : Fin cfg0.N) (r : Fin 1024) (d : Fin 128) (h : 1024 * (t.val % 64) + r.val < 65536) :
    blk4 m c t (ix2 r d) = arr4 m c (ix2 (⟨1024 * (t.val % 64) + r.val, h⟩ : Fin 65536) d) := by
  show iblk m c 4 t (ix2 r d) = V m c main_arg4 _
  unfold iblk
  rw [View.read_apply]
  show V m c main_arg4 (((cfg0.win 4).blk t).view.emb (ix2 r d)) = V m c main_arg4 _
  refine congrArg (V m c main_arg4) (funext fun a => Fin.ext ?_)
  match a with
  | ⟨0, _⟩ => show win0_4.index t 0 * 1024 + 1 * r.val = 1024 * (t.val % 64) + r.val; rw [((idx_f t).2.1).1]; omega
  | ⟨1, _⟩ => show win0_4.index t 1 * 128 + 1 * d.val = d.val; rw [((idx_f t).2.1).2]; omega

/-- Entry `(r, d)` of window 5's block at point `t` is entry `(1024·(t%64) + r, d)` of its array. -/
theorem blk5_apply (c : Dev nD) (t : Fin cfg0.N) (r : Fin 1024) (d : Fin 128) (h : 1024 * (t.val % 64) + r.val < 65536) :
    blk5 m c t (ix2 r d) = arr5 m c (ix2 (⟨1024 * (t.val % 64) + r.val, h⟩ : Fin 65536) d) := by
  show iblk m c 5 t (ix2 r d) = V m c main_arg5 _
  unfold iblk
  rw [View.read_apply]
  show V m c main_arg5 (((cfg0.win 5).blk t).view.emb (ix2 r d)) = V m c main_arg5 _
  refine congrArg (V m c main_arg5) (funext fun a => Fin.ext ?_)
  match a with
  | ⟨0, _⟩ => show win0_5.index t 0 * 1024 + 1 * r.val = 1024 * (t.val % 64) + r.val; rw [((idx_f t).2.2).1]; omega
  | ⟨1, _⟩ => show win0_5.index t 1 * 128 + 1 * d.val = d.val; rw [((idx_f t).2.2).2]; omega

end AnyValues

section Ideal

variable (m : (ℓ : Loc nD τ sig) → Buf (Elt Ideal) ℓ)

/-- Row `r` of the concatenated query block at point `t` is row `1024·(t/64) + r` of the concatenated query arrays. -/
theorem qrow_eq (c : Dev nD) (t : Fin cfg0.N) (r : Fin 1024) (h : 1024 * (t.val / 64) + r.val < 2048) :
    Cert.Spec.cat3 (blk0 m c t) (blk1 m c t) (blk2 m c t) r
      = Cert.Spec.cat3 (arr0 m c) (arr1 m c) (arr2 m c) (⟨1024 * (t.val / 64) + r.val, h⟩ : Fin 2048) := by
  funext d
  unfold Cert.Spec.cat3
  split_ifs
  · exact blk0_apply m c t r _ h
  · exact blk1_apply m c t r _ h
  · exact blk2_apply m c t r _ h

/-- Row `s` of the concatenated fact block at point `t` is row `1024·(t%64) + s` of the concatenated fact arrays. -/
theorem frow_eq (c : Dev nD) (t : Fin cfg0.N) (s : Fin 1024) (h : 1024 * (t.val % 64) + s.val < 65536) :
    Cert.Spec.cat3 (blk3 m c t) (blk4 m c t) (blk5 m c t) s
      = Cert.Spec.cat3 (arr3 m c) (arr4 m c) (arr5 m c) (⟨1024 * (t.val % 64) + s.val, h⟩ : Fin 65536) := by
  funext d
  unfold Cert.Spec.cat3
  split_ifs
  · exact blk3_apply m c t s _ h
  · exact blk4_apply m c t s _ h
  · exact blk5_apply m c t s _ h

end Ideal

end Cert.KernelIdeal.Blocks

end
-- ==== Proof.LibKeepdimsColumn.lean ====
/-
  A vector of `n` entries reshaped to a column `[n, 1]` (what a row reduction with keepdims leaves): the entry at
  `(k, 0)` of the column is entry `k` of the vector. Both sit at row-major position `k`.
-/
import Idealize.ShloMosaic.Lib.ValueIdx
import Idealize.ShloMosaic.Lib.Pipeline.Value

namespace Idealize.ShloMosaic.ValueIdx

variable {α : Type}

/-- An `[n]` array cast to `[n, 1]` reads, at `(k, u)`, the operand at `k`, whatever the unit coordinate `u`.
    (With `n = 1` this is also the cast `[1] → [1, 1]`.) -/
theorem shapeCast_a_a1_apply {n : ℕ} (x : (⟨1, ![n]⟩ : Shape).Idx → α) (h : (⟨1, ![n]⟩ : Shape).ShapeCasts ⟨2, ![n, 1]⟩)
    (k : Fin n) (u : Fin 1) : shapeCast ⟨2, ![n, 1]⟩ x h (ix2 k u) = x (ix1 k) :=
  shapeCast_apply x h _ _ (by
    have hu : u.val = 0 := by omega
    rw [Shape.rowMajor_val_two, Shape.rowMajor_val_one]
    show k.val = k.val * 1 + u.val
    rw [hu, Nat.mul_one, Nat.add_zero])

end Idealize.ShloMosaic.ValueIdx
-- ==== Proof.KPay.lean ====
/-
  The kernel body's arithmetic, read at an index over the extended reals.

  At one grid point the body holds a 1024-row block of queries and a 1024-row block of facts, each as three 128-wide
  pieces.  Its running-minimum update leaves, at row `r`, the smaller of what the accumulator held and the least, over
  the block's 1024 facts `s`, of the clamped squared distance between query row `r` and fact row `s`.  The reset value
  is `+∞` everywhere, and the final value is `exp` of `−½` times the accumulator.
-/
import proofs.«140600_j20306605375522_1_alg».proof.Proof.Gen.KernelIdeal.Skeleton
import proofs.«140600_j20306605375522_1_alg».proof.Proof.Spec
import proofs.«140600_j20306605375522_1_alg».proof.Proof.SpecLaws
import proofs.«140600_j20306605375522_1_alg».proof.Proof.LibKeepdimsColumn
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.KernelIdeal.Pay

open Idealize.ShloMosaic Idealize.ShloMosaic.ValueIdx Cert.KernelIdeal Cert.KernelIdeal.Gen

/-! ## The concatenation of three 128-wide pieces, read at an index -/

/-- Entry `(r, d)` of the three pieces joined along the feature axis is the piece that holds feature `d`, read there. -/
theorem cat_apply (x0 x1 x2 : Vec Ideal S1024x128 .f32) (r : Fin 1024) (d : Fin 384) :
    concatenate S1024x384 1 [⟨S1024x128, x0⟩, ⟨S1024x128, x1⟩, ⟨S1024x128, x2⟩]
        concatenates_S1024x128_S1024x128_S1024x128_S1024x384_d1 (ix2 r d)
      = Cert.Spec.cat3 x0 x1 x2 r d := by
  unfold Cert.Spec.cat3
  by_cases h0 : d.val < 128
  · rw [dif_pos h0]
    refine concatenate_apply_piece (t := S1024x384) (1 : Fin 2) [⟨S1024x128, x0⟩, ⟨S1024x128, x1⟩, ⟨S1024x128, x2⟩] _ (ix2 r d) 0 (by simp) S1024x128 x0 rfl rfl 0 rfl
      (ix2 r ⟨d.val, h0⟩) (fun b hb => ?_) ?_
    · match b with
      | ⟨0, _⟩ => rfl
      | ⟨1, _⟩ => exact absurd rfl hb
    · show 0 + d.val = d.val
      omega
  · rw [dif_neg h0]
    by_cases h1 : d.val < 256
    · rw [dif_pos h1]
      refine concatenate_apply_piece (t := S1024x384) (1 : Fin 2) [⟨S1024x128, x0⟩, ⟨S1024x128, x1⟩, ⟨S1024x128, x2⟩] _ (ix2 r d) 1 (by simp) S1024x128 x1 rfl rfl 128 rfl
        (ix2 r ⟨d.val - 128, by omega⟩) (fun b hb => ?_) ?_
      · match b with
        | ⟨0, _⟩ => rfl
        | ⟨1, _⟩ => exact absurd rfl hb
      · show 128 + (d.val - 128) = d.val
        omega
    · rw [dif_neg h1]
      refine concatenate_apply_piece (t := S1024x384) (1 : Fin 2) [⟨S1024x128, x0⟩, ⟨S1024x128, x1⟩, ⟨S1024x128, x2⟩] _ (ix2 r d) 2 (by simp) S1024x128 x2 rfl rfl 256 rfl
        (ix2 r ⟨d.val - 256, by omega⟩) (fun b hb => ?_) ?_
      · match b with
        | ⟨0, _⟩ => rfl
        | ⟨1, _⟩ => exact absurd rfl hb
      · show 256 + (d.val - 256) = d.val
        have := d.isLt
        omega

/-! ## The layout operations, read at an index -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two reductions along the second axis, read at a row -/

/-- A sum along the 384 features, at row `r`. -/
theorem rowsum_apply (y : FVec Ideal S1024x384 .f32) (hφ : FKind.Formats .f32)
    (hacc : (0x00000000#32 : BitVec 32) = 0x00000000#32) (r : Fin 1024) :
    multiReduction .add [1] S1024 y 0x00000000#32 reduces_S1024x384_S1024 hφ hacc (ix1 r)
      = ∑ d : Fin 384, y (ix2 r d) := by
  refine (Ideal.multiReduction_add_single y 0x00000000#32 reduces_S1024x384_S1024 hφ hacc (ix1 r)).trans ?_
  refine Finset.sum_congr rfl fun d _ => congrArg y (funext fun a => Fin.ext ?_)
  match a with
  | ⟨0, _⟩ => rfl
  | ⟨1, _⟩ => rfl

/-- A minimum along the 1024 columns from `+∞`, at row `r`, is the infimum of the row. -/
theorem rowmin_apply (y : FVec Ideal S1024x1024 .f32) (hφ : FKind.Formats .f32)
    (hacc : (0x7F800000#32 : BitVec 32) = 0x7F800000#32) (r : Fin 1024) :
    multiReduction .minimumf [1] S1024 y 0x7F800000#32 reduces_S1024x1024_S1024 hφ hacc (ix1 r)
      = Finset.univ.inf fun s : Fin 1024 => y (ix2 r s) := by
  refine (multiReduction_minimumf_eq_fold y 0x7F800000#32 reduces_S1024x1024_S1024 hφ hacc (ix1 r)).trans ?_
  refine (reduces_S1024x1024_S1024.fold_filter_drop_single _ _ y (ix1 r)).trans ?_
  refine (Cert.Spec.fold_min_posInf (n := 1024) fun s => y (reduces_S1024x1024_S1024.lift (ix1 r) s)).trans ?_
  refine congrArg (Finset.univ.inf) (funext fun s => congrArg y (funext fun a => Fin.ext ?_))
  match a with
  | ⟨0, _⟩ => rfl
  | ⟨1, _⟩ => rfl

/-! ## The product of the query block with the transposed fact block, read at an entry -/

theorem lhs_mm_0 (i : S1024x1024.Idx) (q : dot_S1024x384_S1024x384_S1024x1024_1_1_0_0_n_n.contr.Idx) :
    (dot_S1024x384_S1024x384_S1024x1024_1_1_0_0_n_n.lhsIdx i q 0).val = (i 0).val := by
  unfold DotDims.lhsIdx
  rw [dif_neg (show ¬(0 : Fin S1024x384.rank) ∈ dot_S1024x384_S1024x384_S1024x1024_1_1_0_0_n_n.lhsBatch by decide), dif_pos (show (0 : Fin S1024x384.rank) ∈ dot_S1024x384_S1024x384_S1024x1024_1_1_0_0_n_n.lhsNonContracting by decide)]
  rfl
theorem lhs_mm_1 (i : S1024x1024.Idx) (q : dot_S1024x384_S1024x384_S1024x1024_1_1_0_0_n_n.contr.Idx) :
    (dot_S1024x384_S1024x384_S1024x1024_1_1_0_0_n_n.lhsIdx i q 1).val = (q ⟨0, by decide⟩).val :=
  dot_S1024x384_S1024x384_S1024x1024_1_1_0_0_n_n.lhsIdx_val_of_single rfl i q
theorem rhs_mm_0 (i : S1024x1024.Idx) (q : dot_S1024x384_S1024x384_S1024x1024_1_1_0_0_n_n.contr.Idx) :
    (dot_S1024x384_S1024x384_S1024x1024_1_1_0_0_n_n.rhsIdx i q 0).val = (i 1).val := by
  unfold DotDims.rhsIdx
  rw [dif_neg (show ¬(0 : Fin S1024x384.rank) ∈ dot_S1024x384_S1024x384_S1024x1024_1_1_0_0_n_n.rhsBatch by decide), dif_pos (show (0 : Fin S1024x384.rank) ∈ dot_S1024x384_S1024x384_S1024x1024_1_1_0_0_n_n.rhsNonContracting by decide)]
  rfl
theorem rhs_mm_1 (i : S1024x1024.Idx) (q : dot_S1024x384_S1024x384_S1024x1024_1_1_0_0_n_n.contr.Idx) :
    (dot_S1024x384_S1024x384_S1024x1024_1_1_0_0_n_n.rhsIdx i q 1).val = (q ⟨0, by decide⟩).val :=
  dot_S1024x384_S1024x384_S1024x1024_1_1_0_0_n_n.rhsIdx_val_of_single rfl i q

/-- Entry `(r, s)` of the product is the inner product, over the 384 features, of row `r` of the left operand with row `s`
    of the right one. -/
theorem mm_apply (A B : FVec Ideal S1024x384 .bf16) (r s : Fin 1024) :
    matmul dot_S1024x384_S1024x384_S1024x1024_1_1_0_0_n_n none A B (constant (F := Ideal) S1024x1024 .f32 0x00000000#32) (ix2 r s)
      = ∑ d : Fin 384, A (ix2 r d) * B (ix2 s d) := by
  simp only [matmul]
  rw [Ideal.matmul_constant_zero_apply, ← Equiv.sum_comp (ValueIdx.contrEquiv1 dot_S1024x384_S1024x384_S1024x1024_1_1_0_0_n_n 384 rfl rfl).symm]
  refine Finset.sum_congr rfl fun k _ => ?_
  have hk := ValueIdx.contrEquiv1_symm_val dot_S1024x384_S1024x384_S1024x1024_1_1_0_0_n_n 384 rfl rfl k
  have el : dot_S1024x384_S1024x384_S1024x1024_1_1_0_0_n_n.lhsIdx (ix2 r s) ((ValueIdx.contrEquiv1 dot_S1024x384_S1024x384_S1024x1024_1_1_0_0_n_n 384 rfl rfl).symm k) = ix2 r k := funext fun a => Fin.ext (by
    match a with
    | ⟨0, _⟩ => exact lhs_mm_0 _ _
    | ⟨1, _⟩ => exact (lhs_mm_1 _ _).trans hk)
  have er : dot_S1024x384_S1024x384_S1024x1024_1_1_0_0_n_n.rhsIdx (ix2 r s) ((ValueIdx.contrEquiv1 dot_S1024x384_S1024x384_S1024x1024_1_1_0_0_n_n 384 rfl rfl).symm k) = ix2 s k := funext fun a => Fin.ext (by
    match a with
    | ⟨0, _⟩ => exact rhs_mm_0 _ _
    | ⟨1, _⟩ => exact (rhs_mm_1 _ _).trans hk)
  rw [el, er]

/-- The store of the updated accumulator passes its value through unchanged (a cast between equal shapes). -/
theorem pay1_eq {F : FTy → Type} [FloatOps F] (v : FVec F S1024x1 .f32) : k0_pay1 v = v := by
  unfold k0_pay1
  exact shapeCast_self v _

/-- The reset value is `+∞` at every row. -/
theorem pay3_apply (y : S1024x1.Idx) : k0_pay3 (F := Ideal) y = Cert.Spec.posInf := by
  unfold k0_pay3
  rw [shapeCast_self]
  rfl

/-- The final value at a row is `exp` of `−½` times the accumulator there. -/
theorem pay2_apply (v : Vec Ideal S1024x1 .f32) (y : S1024x1.Idx) :
    k0_pay2 (F := Ideal) v y = Ideal.exp (v y * Cert.Spec.negHalf) := by
  unfold k0_pay2
  rfl

/-- The running-minimum update at row `r`: the smaller of the accumulator there and the least clamped squared distance from
    query row `r` of the block `x0 ‖ x1 ‖ x2` to the 1024 fact rows of the block `x3 ‖ x4 ‖ x5`. -/
theorem pay4_apply (x0 x1 x2 x3 x4 x5 : Vec Ideal S1024x128 .f32) (acc : Vec Ideal S1024x1 .f32) (r : Fin 1024) :
    k0_pay4 (F := Ideal) x0 x1 x2 x3 x4 x5 acc (ix2 r (0 : Fin 1))
      = min (acc (ix2 r (0 : Fin 1)))
          (Finset.univ.inf fun s : Fin 1024 => Cert.Spec.dist (Cert.Spec.cat3 x0 x1 x2 r) (Cert.Spec.cat3 x3 x4 x5 s)) := by
  unfold k0_pay4
  refine (minimumf_apply _ _ _).trans ?_
  refine congrArg (min (acc (ix2 r (0 : Fin 1)))) ?_
  refine (shapeCast_a_a1_apply _ _ r 0).trans ?_
  refine (rowmin_apply _ _ _ r).trans ?_
  refine congrArg Finset.univ.inf (funext fun s => ?_)
  unfold Cert.Spec.dist Cert.Spec.sq Cert.Spec.dot
  refine (maximumf_apply _ _ _).trans ?_
  refine congrArg₂ max ?_ rfl
  refine (addf_apply _ _ _).trans ?_
  refine congrArg₂ (· + ·) ?_ ?_
  · refine (subf_apply _ _ _).trans ?_
    refine congrArg₂ (· - ·) ?_ ?_
    · refine (broadcastTo_a1_ab_apply _ _ r s).trans ?_
      refine (shapeCast_a_a1_apply _ _ r 0).trans ?_
      refine (rowsum_apply _ _ _ r).trans ?_
      refine Finset.sum_congr rfl fun d _ => ?_
      refine (mulf_apply _ _ _).trans ?_
      rw [cat_apply]
    · refine (mulf_apply _ _ _).trans ?_
      refine congrArg₂ (· * ·) rfl ?_
      refine (mm_apply _ _ r s).trans ?_
      refine Finset.sum_congr rfl fun d _ => ?_
      exact congrArg₂ (fun a b : EReal => a * b) (cat_apply x0 x1 x2 r d) (cat_apply x3 x4 x5 s d)
  · refine (broadcastTo_1b_ab_apply _ _ r s).trans ?_
    refine (shapeCast_a_1a_apply _ _ 0 s).trans ?_
    refine (rowsum_apply _ _ _ s).trans ?_
    refine Finset.sum_congr rfl fun d _ => ?_
    refine (mulf_apply _ _ _).trans ?_
    rw [cat_apply]

end Cert.KernelIdeal.Pay

end
-- ==== Proof.KPieces.lean ====
/-
  What one run of the kernel body leaves behind, case by case, as values.

  The body first (at the first fact tile only) resets the running-minimum scratch to `+∞`, then replaces the scratch by
  the smaller of its contents and this tile's row minima, and (at the last fact tile only) writes `exp (−½ · scratch)`
  to the output block.  So after a first-tile point the scratch holds the update applied to the reset value, after any
  other point the update applied to what the point before left, and at a last-tile point the output block holds the
  final value of the scratch just written.
-/
import proofs.«140600_j20306605375522_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-- After a point that is neither at the first nor at the last fact tile, the scratch holds the update of what it held. -/
theorem sout_B (c : Dev nD) (i : grid0.Coords) (a2 : Memref sig .tc .vmem S1024x128 .f32) (h2 : a2.IsWhole) (a3 : Memref sig .tc .vmem S1024x128 .f32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole) (a8 : Memref sig .tc .vmem S1024x1 .f32) (h8 : a8.IsWhole) (a9 : Memref sig .tc .vmem S1024x1 .f32) (h9 : a9.IsWhole) (hc0 : ¬cond0_0 i) (hc1 : ¬cond0_1 i) (x0 x1 x2 x3 x4 x5 : Vec F S1024x128 .f32) (xs0 : Vec F S1024x1 .f32) :
    sout0_B_0 c i a2 h2 a3 h3 a4 h4 a5 h5 a6 h6 a7 h7 a8 h8 a9 h9 hc0 hc1 x0 x1 x2 x3 x4 x5 xs0 = k0_pay1 (k0_pay4 x0 x1 x2 x3 x4 x5 xs0) := by
  unfold sout0_B_0
  rw [View.read_writes_eq_canon _ _ _ (scover0_B_0 c i a2 h2 a3 h3 a4 h4 a5 h5 a6 h6 a7 h7 a8 h8 a9 h9 hc0 hc1 x0 x1 x2 x3 x4 x5 xs0)]
  unfold kernelRun0_B
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x128) hz, View.ld_unit_zero (S := S1024x1) hz]

/-- After a point at the last fact tile the scratch holds the update of what it held. -/
theorem sout_C (c : Dev nD) (i : grid0.Coords) (a2 : Memref sig .tc .vmem S1024x128 .f32) (h2 : a2.IsWhole) (a3 : Memref sig .tc .vmem S1024x128 .f32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole) (a8 : Memref sig .tc .vmem S1024x1 .f32) (h8 : a8.IsWhole) (a9 : Memref sig .tc .vmem S1024x1 .f32) (h9 : a9.IsWhole) (hc0 : ¬cond0_0 i) (hc1 : cond0_1 i) (x0 x1 x2 x3 x4 x5 : Vec F S1024x128 .f32) (xs0 : Vec F S1024x1 .f32) :
    sout0_C_0 c i a2 h2 a3 h3 a4 h4 a5 h5 a6 h6 a7 h7 a8 h8 a9 h9 hc0 hc1 x0 x1 x2 x3 x4 x5 xs0 = k0_pay1 (k0_pay4 x0 x1 x2 x3 x4 x5 xs0) := by
  unfold sout0_C_0
  rw [View.read_writes_eq_canon _ _ _ (scover0_C_0 c i a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x128) hz, View.ld_unit_zero (S := S1024x1) hz]

/-- At a point at the last fact tile the output block holds the final value of the scratch just written. -/
theorem out_C (c : Dev nD) (i : grid0.Coords) (a2 : Memref sig .tc .vmem S1024x128 .f32) (h2 : a2.IsWhole) (a3 : Memref sig .tc .vmem S1024x128 .f32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole) (a8 : Memref sig .tc .vmem S1024x1 .f32) (h8 : a8.IsWhole) (a9 : Memref sig .tc .vmem S1024x1 .f32) (h9 : a9.IsWhole) (hc0 : ¬cond0_0 i) (hc1 : cond0_1 i) (x0 x1 x2 x3 x4 x5 : Vec F S1024x128 .f32) (xs0 : Vec F S1024x1 .f32) :
    out0_C_6 c i a2 h2 a3 h3 a4 h4 a5 h5 a6 h6 a7 h7 a8 h8 a9 h9 hc0 hc1 x0 x1 x2 x3 x4 x5 xs0 = k0_pay2 (k0_pay1 (k0_pay4 x0 x1 x2 x3 x4 x5 xs0)) := by
  unfold out0_C_6
  rw [View.read_writes_eq_canon _ _ _ (cover0_C_6 c i a2 h2 a3 h3 a4 h4 a5 h5 a6 h6 a7 h7 a8 h8 a9 h9 hc0 hc1 x0 x1 x2 x3 x4 x5 xs0)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, View.ld_unit_zero (S := S1024x128) hz, View.ld_unit_zero (S := S1024x1) hz, View.readCov_unit_zero (S := S1024x1) _ hz]

/-- After a point at the first fact tile the scratch holds the update of the reset value. -/
theorem sout_A (c : Dev nD) (i : grid0.Coords) (a2 : Memref sig .tc .vmem S1024x128 .f32) (h2 : a2.IsWhole) (a3 : Memref sig .tc .vmem S1024x128 .f32) (h3 : a3.IsWhole) (a4 : Memref sig .tc .vmem S1024x128 .f32) (h4 : a4.IsWhole) (a5 : Memref sig .tc .vmem S1024x128 .f32) (h5 : a5.IsWhole) (a6 : Memref sig .tc .vmem S1024x128 .f32) (h6 : a6.IsWhole) (a7 : Memref sig .tc .vmem S1024x128 .f32) (h7 : a7.IsWhole) (a8 : Memref sig .tc .vmem S1024x1 .f32) (h8 : a8.IsWhole) (a9 : Memref sig .tc .vmem S1024x1 .f32) (h9 : a9.IsWhole) (hc0 : cond0_0 i) (hc1 : ¬cond0_1 i) (x0 x1 x2 x3 x4 x5 : Vec F S1024x128 .f32) :
    sout0_A_0 c i a2 h2 a3 h3 a4 h4 a5 h5 a6 h6 a7 h7 a8 h8 a9 h9 hc0 hc1 x0 x1 x2 x3 x4 x5 = k0_pay1 (k0_pay4 x0 x1 x2 x3 x4 x5 (k0_pay3 (F := F))) := by
  unfold sout0_A_0
  rw [View.read_writes_eq_canon _ _ _ (scover0_A_0 c i a2 h2 a3 h3 a4 h4 a5 h5 a6 h6 a7 h7 a8 h8 a9 h9 hc0 hc1 x0 x1 x2 x3 x4 x5)]
  unfold kernelRun0_A
  dsimp only
  sl_unfold_words
  rw [View.canon_cons_unit_zero (S := S1024x1) hz, View.readCov_unit_zero (S := S1024x1) _ hz]
  simp only [View.readAt_eq_ld, h2.read_unread, h3.read_unread, h4.read_unread, h5.read_unread, h6.read_unread, h7.read_unread, h8.read_unread, h9.read_unread, View.ld_unit_zero (S := S1024x128) hz, View.ld_unit_zero (S := S1024x1) hz]

end Cert.KernelIdeal.Pieces

end
-- ==== Proof.KInduct.lean ====
/-
  The running minimum, point by point.

  Point `t` of the grid is query tile `t / 64` and fact tile `t % 64`.  After point `t` the scratch holds, at row `r`, the
  least clamped squared distance from query row `1024·(t/64) + r` to the facts of the tiles `0 … t % 64`: at a first
  tile the reset value `+∞` is met with that tile's row minimum, and at any other tile the value the point before left —
  same query tile, one fact tile fewer — is met with this tile's row minimum.  At a last-tile point the output block holds
  `exp (−½ · that)` with every fact tile taken in.
-/
import proofs.«140600_j20306605375522_1_alg».proof.Proof.Gen.KernelIdeal.Frame
import proofs.«140600_j20306605375522_1_alg».proof.Proof.Spec
import proofs.«140600_j20306605375522_1_alg».proof.Proof.SpecLaws
import proofs.«140600_j20306605375522_1_alg».proof.Proof.KPay
import proofs.«140600_j20306605375522_1_alg».proof.Proof.KPieces
import proofs.«140600_j20306605375522_1_alg».proof.Proof.KBlocks

noncomputable section

namespace Cert.KernelIdeal.Induct

open Idealize.ShloMosaic Idealize.ShloMosaic.TcCoe Idealize.SL.Sem Idealize.ShloMosaic.ValueIdx
open Cert.KernelIdeal Cert.KernelIdeal.Gen Cert.KernelIdeal.Blocks Cert.KernelIdeal.Pay

variable (m : (ℓ : Loc nD τ sig) → Buf (Elt Ideal) ℓ)

/-- The least clamped squared distance from query row `q` to the 1024 facts of tile `j`. -/
def tile (c : Dev nD) (q : Fin 2048) (j : Fin 64) : EReal :=
  Finset.univ.inf fun s : Fin 1024 =>
    Cert.Spec.dist (Cert.Spec.cat3 (arr0 m c) (arr1 m c) (arr2 m c) q)
      (Cert.Spec.cat3 (arr3 m c) (arr4 m c) (arr5 m c) (⟨1024 * j.val + s.val, by have := j.isLt; have := s.isLt; omega⟩ : Fin 65536))

/-- The body's update at point `t`, at row `r`: the accumulator there met with the row minimum over this point's fact tile. -/
theorem upd_apply (c : Dev nD) (t : Fin cfg0.N) (acc : Vec Ideal S1024x1 .f32) (r : Fin 1024)
    (hq : 1024 * (t.val / 64) + r.val < 2048) (hj : t.val % 64 < 64) :
    k0_pay1 (k0_pay4 (F := Ideal) (blk0 m c t) (blk1 m c t) (blk2 m c t) (blk3 m c t) (blk4 m c t) (blk5 m c t) acc) (ix2 r (0 : Fin 1))
      = min (acc (ix2 r (0 : Fin 1))) (tile m c ⟨1024 * (t.val / 64) + r.val, hq⟩ ⟨t.val % 64, hj⟩) := by
  rw [pay1_eq, pay4_apply, qrow_eq m c t r hq]
  refine congrArg (min _) ?_
  unfold tile
  refine Finset.inf_congr rfl fun s _ => ?_
  rw [frow_eq m c t s (by have := s.isLt; omega)]

/-- After a first-tile point the scratch holds that tile's row minima. -/
theorem acc_A (c : Dev nD) (t : Fin cfg0.N) (h0 : t.val % 64 = 0) (r : Fin 1024) (hq : 1024 * (t.val / 64) + r.val < 2048) :
    (outsAt0 m c t.val t.isLt).2 (ix2 r (0 : Fin 1)) = Cert.Spec.upTo (tile m c ⟨1024 * (t.val / 64) + r.val, hq⟩) (t.val % 64) := by
  have h1 : ¬t.val % 64 = 63 := by omega
  rw [outsAt0_A m c t h0 h1]
  dsimp only
  refine (congrFun (Pieces.sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    ((hcond0_0 t).mpr h0) (fun h => h1 ((hcond0_1 t).mp h)) (blk0 m c t) (blk1 m c t) (blk2 m c t) (blk3 m c t) (blk4 m c t) (blk5 m c t)) (ix2 r (0 : Fin 1))).trans ?_
  have hj : t.val % 64 < 64 := by omega
  rw [upd_apply m c t _ r hq hj, pay3_apply, Cert.Spec.min_posInf_left]
  have e : (⟨t.val % 64, hj⟩ : Fin 64) = 0 := Fin.ext h0
  have e2 : Cert.Spec.upTo (tile m c ⟨1024 * (t.val / 64) + r.val, hq⟩) (t.val % 64)
      = Cert.Spec.upTo (tile m c ⟨1024 * (t.val / 64) + r.val, hq⟩) 0 := congrArg _ h0
  rw [e, e2, Cert.Spec.upTo_zero]

/-- After any other point the scratch holds what the point before left, met with this tile's row minima. -/
theorem acc_step (c : Dev nD) (t : Fin cfg0.N) (h0 : ¬t.val % 64 = 0) (r : Fin 1024) (hq : 1024 * (t.val / 64) + r.val < 2048)
    (hprev : (outsAt0 m c (t.val - 1) (Nat.lt_of_le_of_lt (Nat.sub_le _ _) t.isLt)).2 (ix2 r (0 : Fin 1))
      = Cert.Spec.upTo (tile m c ⟨1024 * (t.val / 64) + r.val, hq⟩) (t.val % 64 - 1)) :
    (outsAt0 m c t.val t.isLt).2 (ix2 r (0 : Fin 1)) = Cert.Spec.upTo (tile m c ⟨1024 * (t.val / 64) + r.val, hq⟩) (t.val % 64) := by
  have hlt : t.val % 64 < 64 := Nat.mod_lt _ (by decide)
  have hsucc : t.val % 64 = (t.val % 64 - 1) + 1 := by omega
  by_cases h1 : t.val % 64 = 63
  · rw [outsAt0_C m c t h0 h1]
    dsimp only
    refine (congrFun (Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (fun h => h0 ((hcond0_0 t).mp h)) ((hcond0_1 t).mpr h1) (blk0 m c t) (blk1 m c t) (blk2 m c t) (blk3 m c t) (blk4 m c t) (blk5 m c t)
      (outsAt0 m c (t.val - 1) (Nat.lt_of_le_of_lt (Nat.sub_le _ _) t.isLt)).2) (ix2 r (0 : Fin 1))).trans ?_
    rw [upd_apply m c t _ r hq hlt, hprev]
    conv_rhs => rw [hsucc]
    rw [Cert.Spec.upTo_succ _ _ (by omega)]
    refine congrArg (min _) (congrArg _ (Fin.ext ?_))
    show t.val % 64 = t.val % 64 - 1 + 1
    exact hsucc
  · rw [outsAt0_B m c t h0 h1]
    dsimp only
    refine (congrFun (Pieces.sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
      (fun h => h0 ((hcond0_0 t).mp h)) (fun h => h1 ((hcond0_1 t).mp h)) (blk0 m c t) (blk1 m c t) (blk2 m c t) (blk3 m c t) (blk4 m c t) (blk5 m c t)
      (outsAt0 m c (t.val - 1) (Nat.lt_of_le_of_lt (Nat.sub_le _ _) t.isLt)).2) (ix2 r (0 : Fin 1))).trans ?_
    rw [upd_apply m c t _ r hq hlt, hprev]
    conv_rhs => rw [hsucc]
    rw [Cert.Spec.upTo_succ _ _ (by omega)]
    refine congrArg (min _) (congrArg _ (Fin.ext ?_))
    show t.val % 64 = t.val % 64 - 1 + 1
    exact hsucc

/-- After point `n` the scratch holds, at row `r`, the least distance from query row `1024·(n/64) + r` to the facts of the
    tiles `0 … n % 64`: by induction on the point. -/
theorem acc_eq (c : Dev nD) : ∀ (n : ℕ) (hn : n < cfg0.N) (r : Fin 1024) (hq : 1024 * (n / 64) + r.val < 2048),
    (outsAt0 m c n hn).2 (ix2 r (0 : Fin 1)) = Cert.Spec.upTo (tile m c ⟨1024 * (n / 64) + r.val, hq⟩) (n % 64)
  | 0, hn, r, hq => acc_A m c ⟨0, hn⟩ rfl r hq
  | n + 1, hn, r, hq => by
    by_cases h0 : (n + 1) % 64 = 0
    · exact acc_A m c ⟨n + 1, hn⟩ h0 r hq
    · have hdiv : n / 64 = (n + 1) / 64 := by omega
      have hmod : n % 64 = (n + 1) % 64 - 1 := by omega
      have hq' : 1024 * (n / 64) + r.val < 2048 := by rw [hdiv]; exact hq
      refine acc_step m c ⟨n + 1, hn⟩ h0 r hq ?_
      show (outsAt0 m c n _).2 (ix2 r (0 : Fin 1)) = _
      rw [acc_eq c n (Nat.lt_of_succ_lt hn) r hq']
      show Cert.Spec.upTo (tile m c ⟨1024 * (n / 64) + r.val, hq'⟩) (n % 64) = Cert.Spec.upTo (tile m c ⟨1024 * ((n + 1) / 64) + r.val, hq⟩) ((n + 1) % 64 - 1)
      rw [← hmod]
      exact congrArg (fun q => Cert.Spec.upTo (tile m c q) (n % 64)) (Fin.ext (by show 1024 * (n / 64) + r.val = 1024 * ((n + 1) / 64) + r.val; rw [hdiv]))

/-- At a last-tile point the output block holds, at row `r`, `exp (−½ · the least distance to any fact)` of query row
    `1024·(t/64) + r`. -/
theorem out_eq (c : Dev nD) (t : Fin cfg0.N) (h1 : t.val % 64 = 63) (r : Fin 1024) (hq : 1024 * (t.val / 64) + r.val < 2048) :
    (outsAt0 m c t.val t.isLt).1 (ix2 r (0 : Fin 1))
      = Ideal.exp ((Finset.univ.inf (tile m c ⟨1024 * (t.val / 64) + r.val, hq⟩)) * Cert.Spec.negHalf) := by
  have h0 : ¬t.val % 64 = 0 := by omega
  have hacc := acc_eq m c t.val t.isLt r hq
  rw [outsAt0_C m c t h0 h1] at hacc ⊢
  dsimp only at hacc ⊢
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (fun h => h0 ((hcond0_0 t).mp h)) ((hcond0_1 t).mpr h1) (blk0 m c t) (blk1 m c t) (blk2 m c t) (blk3 m c t) (blk4 m c t) (blk5 m c t)
    (outsAt0 m c (t.val - 1) (Nat.lt_of_le_of_lt (Nat.sub_le _ _) t.isLt)).2) (ix2 r (0 : Fin 1))).trans ?_
  rw [pay2_apply]
  rw [← Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (fun h => h0 ((hcond0_0 t).mp h)) ((hcond0_1 t).mpr h1) (blk0 m c t) (blk1 m c t) (blk2 m c t) (blk3 m c t) (blk4 m c t) (blk5 m c t)
    (outsAt0 m c (t.val - 1) (Nat.lt_of_le_of_lt (Nat.sub_le _ _) t.isLt)).2]
  rw [hacc, h1, Cert.Spec.upTo_last]

end Cert.KernelIdeal.Induct

end
-- ==== Proof.KFinal.lean ====
/-
  From the blocks to the result.

  The output window writes a block back only after a last-tile point: point `63` writes rows `0 … 1023` and point `127`
  rows `1024 … 2047` of the 2048 × 1 result array, each row `b` holding `exp (−½ · the least clamped squared distance from
  query `b` to any of the 65536 facts)` — the least over the 64 tiles of the tiles' row minima is the least over all
  facts.  The two blocks cover the array, so the array ends as the specification's scores in a column, and the final
  reshape to a vector of 2048 entries reads the column entry by entry.
-/
import proofs.«140600_j20306605375522_1_alg».proof.Proof.Gen.KernelIdeal.Frame
import proofs.«140600_j20306605375522_1_alg».proof.Proof.Spec
import proofs.«140600_j20306605375522_1_alg».proof.Proof.SpecLaws
import proofs.«140600_j20306605375522_1_alg».proof.Proof.KBlocks
import proofs.«140600_j20306605375522_1_alg».proof.Proof.KInduct
import Idealize.ShloMosaic.Lib.Pipeline.Value
import Idealize.ShloMosaic.Lib.StableHlo.Run
import Idealize.ShloMosaic.Lib.ValueIdx

set_option maxRecDepth 65536

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Induct

variable (m : (ℓ : Loc nD τ sig) → Buf (Elt Ideal) ℓ) (ρ : Dev nD → PrngReg)

/-- The result column: row `b` holds the specification's score of query `b`. -/
@[irreducible] def col (c : Dev nD) : Buf (Elt Ideal) ((c : Thread nD τ).loc main_v0) :=
  fun i => Cert.Spec.G (arr0 m c) (arr1 m c) (arr2 m c) (arr3 m c) (arr4 m c) (arr5 m c) ⟨(i 0).val, (i 0).isLt⟩

/-- The output window's block index at point `t` is `(t / 64, 0)`: decided over the grid. -/
theorem idx_o : ∀ t : Fin cfg0.N, win0_6.index t 0 = t.val / 64 ∧ win0_6.index t 1 = 0 :=
  (by decide +kernel : ∀ t : Fin grid0.N, win0_6.index t 0 = t.val / 64 ∧ win0_6.index t 1 = 0)

/-- The least over the tiles of a query row's tile minima is its least distance to any fact. -/
theorem inf_tile (c : Dev nD) (q : Fin 2048) :
    Finset.univ.inf (tile m c q)
      = Finset.univ.inf fun f : Fin 65536 =>
          Cert.Spec.dist (Cert.Spec.cat3 (arr0 m c) (arr1 m c) (arr2 m c) q) (Cert.Spec.cat3 (arr3 m c) (arr4 m c) (arr5 m c) f) :=
  Cert.Spec.inf_tiles fun f : Fin 65536 =>
    Cert.Spec.dist (Cert.Spec.cat3 (arr0 m c) (arr1 m c) (arr2 m c) q) (Cert.Spec.cat3 (arr3 m c) (arr4 m c) (arr5 m c) f)

/-- What a last-tile point leaves in the output block at row `r` is the score of query `1024·(t/64) + r`. -/
theorem flushed_row (c : Dev nD) (t : Fin cfg0.N) (h1 : t.val % 64 = 63) (r : Fin 1024) (hq : 1024 * (t.val / 64) + r.val < 2048) :
    (outsAt0 m c t.val t.isLt).1 (ix2 r (0 : Fin 1))
      = Cert.Spec.G (arr0 m c) (arr1 m c) (arr2 m c) (arr3 m c) (arr4 m c) (arr5 m c) ⟨1024 * (t.val / 64) + r.val, hq⟩ := by
  rw [out_eq m c t h1 r hq, inf_tile]
  rfl

/-- Contents of the output block that agree, entry by entry, with an array read through the block at point `t` are what
    the write-back at `t` writes of that array. -/
theorem cut_eq_read (c : Dev nD) (t : Fin cfg0.N) (X : Vec Ideal S1024x1 .f32) (A : Buf (Elt Ideal) ((c : Thread nD τ).loc main_v0))
    (h : ∀ y : ((cfg0.win 6).xblock (grid0.coords t)).Idx,
      X ((cfg0.win 6).xinj (grid0.coords t) y) = A (((cfg0.win 6).blk t).view.emb y)) :
    (cfg0.win 6).cut (grid0.coords t) X = ((cfg0.win 6).blk t).view.read (Elt Ideal) A := by
  funext y
  rw [View.read_apply]
  exact h y

/-- What a flushing point writes back is its block of the result column. -/
theorem flushed_eq (c : Dev nD) (t : Fin cfg0.N) (hf : (cfg0.win 6).flush t = true) :
    (dats m 0 c).flushed 6 t = ((cfg0.win 6).blk t).view.read (Elt Ideal) (col m c) := by
  have h1 : t.val % 64 = 63 := (flush0_6 t).mp hf
  have hN : t.val < 128 := lt_of_lt_of_eq t.isLt (show cfg0.N = 128 from N_0)
  show (cfg0.win 6).cut (grid0.coords t) ((dats m 0 c).after 6 t) = _
  rw [after0_6]
  refine cut_eq_read c t _ _ fun y => ?_
  have hy0 : (y 0).val < 1024 := (y 0).isLt
  have hy1 : (y 1).val < 1 := (y 1).isLt
  have hq : 1024 * (t.val / 64) + (y 0).val < 2048 := by omega
  have ey : (cfg0.win 6).xinj (grid0.coords t) y = ix2 (⟨(y 0).val, hy0⟩ : Fin 1024) (0 : Fin 1) :=
    funext fun a => Fin.ext (by
      match a with
      | ⟨0, _⟩ => rfl
      | ⟨1, _⟩ => show (y 1).val = 0; omega)
  rw [ey, flushed_row m c t h1 ⟨(y 0).val, hy0⟩ hq]
  unfold col
  refine congrArg (Cert.Spec.G (arr0 m c) (arr1 m c) (arr2 m c) (arr3 m c) (arr4 m c) (arr5 m c)) (Fin.ext ?_)
  show 1024 * (t.val / 64) + (y 0).val = win0_6.index t 0 * 1024 + 1 * (y 0).val
  rw [(idx_o t).1]; omega

/-- Every row of the result column lies in the block of the last-tile point of its query tile. -/
theorem cover (c : Dev nD) (i : ((cfg0.win 6).arr.view.loc (c.tc : Thread nD τ)).2.ty.Idx) :
    ∃ t : Fin cfg0.N, (cfg0.win 6).flush t = true ∧ i ∈ ((cfg0.win 6).blk t).view.set := by
  have hN : cfg0.N = 128 := N_0
  have h0 : (i 0 : Nat) < 2048 := (i 0).isLt
  have h1 : (i 1 : Nat) < 1 := (i 1).isLt
  obtain ⟨t, ht⟩ : ∃ t : Fin cfg0.N, t.val = 64 * ((i 0 : Nat) / 1024) + 63 := ⟨⟨64 * ((i 0 : Nat) / 1024) + 63, by rw [hN]; omega⟩, rfl⟩
  refine ⟨t, (flush0_6 t).mpr (by omega), ?_⟩
  show i ∈ ((View.whole main_v0).slice (win0_6.rect t)).set
  rw [View.set_slice_whole, Rect.mem_set_unit]
  intro a
  have hi := idx_o t
  match a with
  | ⟨0, _⟩ =>
    show win0_6.index t 0 * 1024 ≤ (i 0 : Nat) ∧ (i 0 : Nat) < win0_6.index t 0 * 1024 + 1024
    rw [hi.1]; omega
  | ⟨1, _⟩ =>
    show win0_6.index t 1 * 1 ≤ (i 1 : Nat) ∧ (i 1 : Nat) < win0_6.index t 1 * 1 + 1
    rw [hi.2]; omega

/-- The result array ends as the result column. -/
theorem final (c : Dev nD) : (dats m 0 c).arrAt 6 cfg0.N = col m c :=
  (dats m 0 c).arrAt_eq_of_cover 6 (col m c) (flushed_eq m c) (cover c)

/-- A column `[n, 1]` reshaped to a vector `[n]` reads, at `k`, the column's entry `(k, 0)`: both sit at row-major position `k`. -/
theorem shapeCast_col_apply {α : Type} {n : ℕ} (x : (⟨2, ![n, 1]⟩ : Shape).Idx → α) (h : (⟨2, ![n, 1]⟩ : Shape).ShapeCasts ⟨1, ![n]⟩)
    (k : Fin n) : shapeCast ⟨1, ![n]⟩ x h (ix1 k) = x (ix2 k (0 : Fin 1)) :=
  shapeCast_apply x h _ _ (by
    rw [Shape.rowMajor_val_two, Shape.rowMajor_val_one]
    show k.val * 1 + 0 = k.val
    omega)

/-- The program's result: the reshape of the result array, which is the vector of the specification's scores. -/
theorem tail_eq (c : Dev nD) :
    Pipeline.afterTail₀ cfgs (dats m) 0 (V0 m) [hostOps1] c main_v1
      = Cert.Spec.Gvec (arr0 m c) (arr1 m c) (arr2 m c) (arr3 m c) (arr4 m c) (arr5 m c) := by
  unfold Pipeline.afterTail₀
  show StableHlo.after hostOps1 _ (Proc.devRef .tc main_v1) = _
  after_results
  rw [show Pipeline.withArrays (cfgs 0).spec c (V0 m c) (fun w => (dats m 0 c).arrAt w (cfgs 0).N) (Proc.devRef .tc main_v0) = col m c from
    (Pipeline.withArrays_arr spec0 launch0.win.arr_inj c _ _ 6).trans (final m c)]
  funext i
  obtain ⟨k, rfl⟩ : ∃ k : Fin 2048, i = ix1 k := ⟨i 0, eq_ix1 i⟩
  show shapeCast S2048 (col m c) shapeCasts_S2048x1_S2048 (ix1 k) = _
  rw [shapeCast_col_apply]
  unfold col Cert.Spec.Gvec
  rfl

/-- The run, read: the result at the vector of the specification's scores of the argument arrays, the arguments unchanged. -/
theorem run : θ_run defs (onTc (τ := τ) (main (F := Ideal))) ⟨m, fun _ => 0, ρ⟩ fun r => ∀ c : Dev nD,
      r.2.mem ((c.tc : Thread nD τ).loc main_v1)
        = Cert.Spec.Gvec (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Final

end
-- ==== Proof.lean ====
/-
  The certificate: both programs compute, for each of the 2048 queries `b`, the score
  `exp (−½ · the least over the 65536 facts of max (‖q_b‖² − 2·⟨q_b, φ_f⟩ + ‖φ_f‖²) 0)`
  over the extended reals, where `q_b` and `φ_f` are rows of the three query arrays and of the three fact arrays joined
  along their 384 features.

  The kernel sweeps the facts in 64 tiles of 1024 for each of two tiles of 1024 queries, keeps a running minimum of the
  clamped squared distances in a scratch column that it resets to `+∞` at the first tile, and applies the exponential
  once, after the last tile.  The reference applies `exp (−d/2)` to every distance and takes the maximum over the facts.
  The two agree because `d ↦ exp (−d/2)` is antitone (so the maximum of the images is the image of the minimum), because
  `(−d)/2 = d·(−½)` on every extended real, and because a minimum over all facts is the minimum over the tiles of the
  tiles' minima; the sums of squares and the inner products are the same sums on both sides, and a change of float
  format is the identity over the extended reals.  No finiteness of the inputs is used.

  The three frames are the generated ones (the reference's is its run with the result dropped).  The idealized kernel is
  the kernel's own text read over the extended reals, with no operation replaced, so the preservation claim is trivial.
-/
import proofs.«140600_j20306605375522_1_alg».proof.Defs
import proofs.«140600_j20306605375522_1_alg».proof.Proof.Gen.Kernel
import proofs.«140600_j20306605375522_1_alg».proof.Proof.Gen.Kernel.Skeleton
import proofs.«140600_j20306605375522_1_alg».proof.Proof.Gen.Kernel.Launch
import proofs.«140600_j20306605375522_1_alg».proof.Proof.Gen.Kernel.Points
import proofs.«140600_j20306605375522_1_alg».proof.Proof.Gen.Kernel.Frame
import proofs.«140600_j20306605375522_1_alg».proof.Proof.Gen.KernelIdeal
import proofs.«140600_j20306605375522_1_alg».proof.Proof.Gen.KernelIdeal.Skeleton
import proofs.«140600_j20306605375522_1_alg».proof.Proof.Gen.KernelIdeal.Launch
import proofs.«140600_j20306605375522_1_alg».proof.Proof.Gen.KernelIdeal.Points
import proofs.«140600_j20306605375522_1_alg».proof.Proof.Gen.KernelIdeal.Frame
import proofs.«140600_j20306605375522_1_alg».proof.Proof.Gen.ReferenceIdeal
import proofs.«140600_j20306605375522_1_alg».proof.Proof.Gen.ReferenceIdeal.Run
import proofs.«140600_j20306605375522_1_alg».proof.Proof.Gen.ReferenceIdeal.Read
import proofs.«140600_j20306605375522_1_alg».proof.Proof.Gen.Pre_finite_inputs
import proofs.«140600_j20306605375522_1_alg».proof.Proof.Spec
import proofs.«140600_j20306605375522_1_alg».proof.Proof.RefSide
import proofs.«140600_j20306605375522_1_alg».proof.Proof.KFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the vector of the specification's scores of the (agreeing) argument arrays. -/
theorem algebraic : Cert.algebraic_KernelIdeal_ReferenceIdeal := by
  intro m ρ m' ρ' _ hagree
  refine ⟨fun c => Cert.Spec.Gvec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.RefSide.ref_eq, (hagree c).1, (hagree c).2.1, (hagree c).2.2.1,
    (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
